-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x150 : Shape := ⟨2, ![100000, 150]⟩
abbrev S150x150 : Shape := ⟨2, ![150, 150]⟩
abbrev S_ : Shape := ⟨0, ![]⟩

class Facts : Prop where
  bcast_S_S100000x150 : S_.BroadcastsInDim S100000x150 (![] : Fin 0 → Fin S100000x150.rank)
  reducesTo_S100000x150_S_d0_1 : S100000x150.ReducesTo [0, 1] S_
  h_S_ : 0 < S_.numel
  bcast_S_S150x150 : S_.BroadcastsInDim S150x150 (![] : Fin 0 → Fin S150x150.rank)
  reducesTo_S150x150_S_d0_1 : S150x150.ReducesTo [0, 1] S_

variable [Facts]

def fn_part2 {F : FTy → Type} [FloatOps F] (main_arg7 : FVec F S150x150 .f32) (main_arg8 : FVec F S150x150 .f32) (main_v33 : IVec S_ 1) : IVec S_ 1 :=
  let main_v34 : FVec F S150x150 .f32 := Host.absf main_arg7
  let main_cst_12 : FVec F S_ .f32 := constant S_ .f32 0x7F800000#32
  let main_v35 : FVec F S150x150 .f32 := broadcastInDim S150x150 ![] bcast_S_S150x150 main_cst_12
  let main_v36 : IVec S150x150 1 := cmpf .olt main_v34 main_v35
  let main_c_13 : IVec S_ 1 := constantI S_ 1 1#1
  let main_v37 : IVec S_ 1 := (fun x v => Host.reduce IntOp.andi x v reducesTo_S150x150_S_d0_1 h_S_) main_v36 main_c_13
  let main_v38 : IVec S_ 1 := andi main_v33 main_v37
  let main_v39 : FVec F S150x150 .f32 := Host.absf main_arg8
  let main_cst_14 : FVec F S_ .f32 := constant S_ .f32 0x7F800000#32
  let main_v40 : FVec F S150x150 .f32 := broadcastInDim S150x150 ![] bcast_S_S150x150 main_cst_14
  let main_v41 : IVec S150x150 1 := cmpf .olt main_v39 main_v40
  let main_c_15 : IVec S_ 1 := constantI S_ 1 1#1
  let main_v42 : IVec S_ 1 := (fun x v => Host.reduce IntOp.andi x v reducesTo_S150x150_S_d0_1 h_S_) main_v41 main_c_15
  let main_v43 : IVec S_ 1 := andi main_v38 main_v42
  main_v43

def fn_part1 {F : FTy → Type} [FloatOps F] (main_arg4 : FVec F S100000x150 .f32) (main_arg5 : FVec F S150x150 .f32) (main_arg6 : FVec F S150x150 .f32) (main_arg7 : FVec F S150x150 .f32) (main_arg8 : FVec F S150x150 .f32) (main_v13 : IVec S_ 1) (main_v16 : IVec S100000x150 1) : IVec S_ 1 :=
  let main_c_5 : IVec S_ 1 := constantI S_ 1 1#1
  let main_v17 : IVec S_ 1 := (fun x v => Host.reduce IntOp.andi x v reducesTo_S100000x150_S_d0_1 h_S_) main_v16 main_c_5
  let main_v18 : IVec S_ 1 := andi main_v13 main_v17
  let main_v19 : FVec F S100000x150 .f32 := Host.absf main_arg4
  let main_cst_6 : FVec F S_ .f32 := constant S_ .f32 0x7F800000#32
  let main_v20 : FVec F S100000x150 .f32 := broadcastInDim S100000x150 ![] bcast_S_S100000x150 main_cst_6
  let main_v21 : IVec S100000x150 1 := cmpf .olt main_v19 main_v20
  let main_c_7 : IVec S_ 1 := constantI S_ 1 1#1
  let main_v22 : IVec S_ 1 := (fun x v => Host.reduce IntOp.andi x v reducesTo_S100000x150_S_d0_1 h_S_) main_v21 main_c_7
  let main_v23 : IVec S_ 1 := andi main_v18 main_v22
  let main_v24 : FVec F S150x150 .f32 := Host.absf main_arg5
  let main_cst_8 : FVec F S_ .f32 := constant S_ .f32 0x7F800000#32
  let main_v25 : FVec F S150x150 .f32 := broadcastInDim S150x150 ![] bcast_S_S150x150 main_cst_8
  let main_v26 : IVec S150x150 1 := cmpf .olt main_v24 main_v25
  let main_c_9 : IVec S_ 1 := constantI S_ 1 1#1
  let main_v27 : IVec S_ 1 := (fun x v => Host.reduce IntOp.andi x v reducesTo_S150x150_S_d0_1 h_S_) main_v26 main_c_9
  let main_v28 : IVec S_ 1 := andi main_v23 main_v27
  let main_v29 : FVec F S150x150 .f32 := Host.absf main_arg6
  let main_cst_10 : FVec F S_ .f32 := constant S_ .f32 0x7F800000#32
  let main_v30 : FVec F S150x150 .f32 := broadcastInDim S150x150 ![] bcast_S_S150x150 main_cst_10
  let main_v31 : IVec S150x150 1 := cmpf .olt main_v29 main_v30
  let main_c_11 : IVec S_ 1 := constantI S_ 1 1#1
  let main_v32 : IVec S_ 1 := (fun x v => Host.reduce IntOp.andi x v reducesTo_S150x150_S_d0_1 h_S_) main_v31 main_c_11
  let main_v33 : IVec S_ 1 := andi main_v28 main_v32
  fn_part2 (F := F) main_arg7 main_arg8 main_v33

def fn {F : FTy → Type} [FloatOps F] (main_arg0 : FVec F S100000x150 .f32) (main_arg1 : FVec F S100000x150 .f32) (main_arg2 : FVec F S100000x150 .f32) (main_arg3 : FVec F S100000x150 .f32) (main_arg4 : FVec F S100000x150 .f32) (main_arg5 : FVec F S150x150 .f32) (main_arg6 : FVec F S150x150 .f32) (main_arg7 : FVec F S150x150 .f32) (main_arg8 : FVec F S150x150 .f32) : IVec S_ 1 :=
  let main_v0 : FVec F S100000x150 .f32 := Host.absf main_arg0
  let main_cst : FVec F S_ .f32 := constant S_ .f32 0x7F800000#32
  let main_v1 : FVec F S100000x150 .f32 := broadcastInDim S100000x150 ![] bcast_S_S100000x150 main_cst
  let main_v2 : IVec S100000x150 1 := cmpf .olt main_v0 main_v1
  let main_c : IVec S_ 1 := constantI S_ 1 1#1
  let main_v3 : IVec S_ 1 := (fun x v => Host.reduce IntOp.andi x v reducesTo_S100000x150_S_d0_1 h_S_) main_v2 main_c
  let main_v4 : FVec F S100000x150 .f32 := Host.absf main_arg1
  let main_cst_0 : FVec F S_ .f32 := constant S_ .f32 0x7F800000#32
  let main_v5 : FVec F S100000x150 .f32 := broadcastInDim S100000x150 ![] bcast_S_S100000x150 main_cst_0
  let main_v6 : IVec S100000x150 1 := cmpf .olt main_v4 main_v5
  let main_c_1 : IVec S_ 1 := constantI S_ 1 1#1
  let main_v7 : IVec S_ 1 := (fun x v => Host.reduce IntOp.andi x v reducesTo_S100000x150_S_d0_1 h_S_) main_v6 main_c_1
  let main_v8 : IVec S_ 1 := andi main_v3 main_v7
  let main_v9 : FVec F S100000x150 .f32 := Host.absf main_arg2
  let main_cst_2 : FVec F S_ .f32 := constant S_ .f32 0x7F800000#32
  let main_v10 : FVec F S100000x150 .f32 := broadcastInDim S100000x150 ![] bcast_S_S100000x150 main_cst_2
  let main_v11 : IVec S100000x150 1 := cmpf .olt main_v9 main_v10
  let main_c_3 : IVec S_ 1 := constantI S_ 1 1#1
  let main_v12 : IVec S_ 1 := (fun x v => Host.reduce IntOp.andi x v reducesTo_S100000x150_S_d0_1 h_S_) main_v11 main_c_3
  let main_v13 : IVec S_ 1 := andi main_v8 main_v12
  let main_v14 : FVec F S100000x150 .f32 := Host.absf main_arg3
  let main_cst_4 : FVec F S_ .f32 := constant S_ .f32 0x7F800000#32
  let main_v15 : FVec F S100000x150 .f32 := broadcastInDim S100000x150 ![] bcast_S_S100000x150 main_cst_4
  let main_v16 : IVec S100000x150 1 := cmpf .olt main_v14 main_v15
  fn_part1 (F := F) main_arg4 main_arg5 main_arg6 main_arg7 main_arg8 main_v13 main_v16
-- ==== Kernel.lean ====
abbrev S100000x150 : Shape := ⟨2, ![100000, 150]⟩
abbrev S150x150 : Shape := ⟨2, ![150, 150]⟩
abbrev S2000x150 : Shape := ⟨2, ![2000, 150]⟩

abbrev nBuf : Space → Nat
  | .hbm => 11
  | .vmem => 18
  | .smem => 0
  | _ => 0

abbrev bufTy : (tb : Table) → Fin (tcTables nBuf tb) → BufTy
  | .hbm, ⟨0, _⟩ => ⟨S100000x150, .f32⟩
  | .hbm, ⟨1, _⟩ => ⟨S100000x150, .f32⟩
  | .hbm, ⟨2, _⟩ => ⟨S100000x150, .f32⟩
  | .hbm, ⟨3, _⟩ => ⟨S100000x150, .f32⟩
  | .hbm, ⟨4, _⟩ => ⟨S100000x150, .f32⟩
  | .hbm, ⟨5, _⟩ => ⟨S150x150, .f32⟩
  | .hbm, ⟨6, _⟩ => ⟨S150x150, .f32⟩
  | .hbm, ⟨7, _⟩ => ⟨S150x150, .f32⟩
  | .hbm, ⟨8, _⟩ => ⟨S150x150, .f32⟩
  | .hbm, ⟨9, _⟩ => ⟨S100000x150, .f32⟩
  | .hbm, ⟨10, _⟩ => ⟨S100000x150, .f32⟩
  | .local _ .vmem, ⟨0, _⟩ => ⟨S2000x150, .f32⟩
  | .local _ .vmem, ⟨1, _⟩ => ⟨S2000x150, .f32⟩
  | .local _ .vmem, ⟨2, _⟩ => ⟨S2000x150, .f32⟩
  | .local _ .vmem, ⟨3, _⟩ => ⟨S2000x150, .f32⟩
  | .local _ .vmem, ⟨4, _⟩ => ⟨S2000x150, .f32⟩
  | .local _ .vmem, ⟨5, _⟩ => ⟨S2000x150, .f32⟩
  | .local _ .vmem, ⟨6, _⟩ => ⟨S2000x150, .f32⟩
  | .local _ .vmem, ⟨7, _⟩ => ⟨S2000x150, .f32⟩
  | .local _ .vmem, ⟨8, _⟩ => ⟨S2000x150, .f32⟩
  | .local _ .vmem, ⟨9, _⟩ => ⟨S2000x150, .f32⟩
  | .local _ .vmem, ⟨10, _⟩ => ⟨S150x150, .f32⟩
  | .local _ .vmem, ⟨11, _⟩ => ⟨S150x150, .f32⟩
  | .local _ .vmem, ⟨12, _⟩ => ⟨S150x150, .f32⟩
  | .local _ .vmem, ⟨13, _⟩ => ⟨S150x150, .f32⟩
  | .local _ .vmem, ⟨14, _⟩ => ⟨S2000x150, .f32⟩
  | .local _ .vmem, ⟨15, _⟩ => ⟨S2000x150, .f32⟩
  | .local _ .vmem, ⟨16, _⟩ => ⟨S2000x150, .f32⟩
  | .local _ .vmem, ⟨17, _⟩ => ⟨S2000x150, .f32⟩
  | _, _ => ⟨S100000x150, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x150 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x150 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x150 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x150 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x150 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S150x150 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S150x150 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S150x150 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S150x150 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x150 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x150 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  inb_S2000x150_S2000x150_0_0 : ∀ a, (![0, 0] : Fin 2 → Nat) a + S2000x150.size a ≤ S2000x150.size a
  h_S2000x150 : 0 < S2000x150.numel
  inb_S150x150_S150x150_0_0 : ∀ a, (![0, 0] : Fin 2 → Nat) a + S150x150.size a ≤ S150x150.size a
  h_S150x150 : 0 < S150x150.numel
  dot_S2000x150_S150x150_S2000x150_1_0_0_1_n_n_wf : DotDims.WF S2000x150 S150x150 S2000x150 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x150.size a ≤ S100000x150.size a
  hwx0_0 : ∀ i : grid0.Coords, EltTy.bits .f32 = 32 ∨ (Rect.block (s := S100000x150) S2000x150.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x150.size a ≤ S100000x150.size a
  hwx0_1 : ∀ i : grid0.Coords, EltTy.bits .f32 = 32 ∨ (Rect.block (s := S100000x150) S2000x150.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x150.size a ≤ S100000x150.size a
  hwx0_2 : ∀ i : grid0.Coords, EltTy.bits .f32 = 32 ∨ (Rect.block (s := S100000x150) S2000x150.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x150.size a ≤ S100000x150.size a
  hwx0_3 : ∀ i : grid0.Coords, EltTy.bits .f32 = 32 ∨ (Rect.block (s := S100000x150) S2000x150.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x150.size a ≤ S100000x150.size a
  hwx0_4 : ∀ i : grid0.Coords, EltTy.bits .f32 = 32 ∨ (Rect.block (s := S100000x150) S2000x150.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S150x150.size a ≤ S150x150.size a
  hwx0_5 : ∀ i : grid0.Coords, EltTy.bits .f32 = 32 ∨ (Rect.block (s := S150x150) S150x150.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S150x150.size a ≤ S150x150.size a
  hwx0_6 : ∀ i : grid0.Coords, EltTy.bits .f32 = 32 ∨ (Rect.block (s := S150x150) S150x150.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S150x150.size a ≤ S150x150.size a
  hwx0_7 : ∀ i : grid0.Coords, EltTy.bits .f32 = 32 ∨ (Rect.block (s := S150x150) S150x150.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S150x150.size a ≤ S150x150.size a
  hwx0_8 : ∀ i : grid0.Coords, EltTy.bits .f32 = 32 ∨ (Rect.block (s := S150x150) S150x150.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x150.size a ≤ S100000x150.size a
  hwx0_9 : ∀ i : grid0.Coords, EltTy.bits .f32 = 32 ∨ (Rect.block (s := S100000x150) S2000x150.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x150.size a ≤ S100000x150.size a
  hwx0_10 : ∀ i : grid0.Coords, EltTy.bits .f32 = 32 ∨ (Rect.block (s := S100000x150) S2000x150.size (cc0_transform_10 i) (hinb0_10 i)).WholeWords (EltTy.packing .f32)

variable [Facts₀]

def dot_S2000x150_S150x150_S2000x150_1_0_0_1_n_n : DotDims S2000x150 S150x150 S2000x150 where
  lhsContracting := [1]
  rhsContracting := [0]
  lhsNonContracting := [0]
  rhsNonContracting := [1]
  lhsBatch := []
  rhsBatch := []
  wf := dot_S2000x150_S150x150_S2000x150_1_0_0_1_n_n_wf

abbrev win0_0 : Pipeline.Window sig grid0 :=
  Pipeline.Window.ofSpec (Memref.whole main_arg0) S2000x150.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x150.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x150.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2000x150.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2000x150.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S150x150.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S150x150.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S150x150.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S150x150.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0_0) S2000x150.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_1) S2000x150.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S100000x150 : Shape := ⟨2, ![100000, 150]⟩
abbrev S150x150 : Shape := ⟨2, ![150, 150]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S100000x150, .f32⟩
  | .hbm, ⟨1, _⟩ => ⟨S100000x150, .f32⟩
  | .hbm, ⟨2, _⟩ => ⟨S100000x150, .f32⟩
  | .hbm, ⟨3, _⟩ => ⟨S100000x150, .f32⟩
  | .hbm, ⟨4, _⟩ => ⟨S100000x150, .f32⟩
  | .hbm, ⟨5, _⟩ => ⟨S150x150, .f32⟩
  | .hbm, ⟨6, _⟩ => ⟨S150x150, .f32⟩
  | .hbm, ⟨7, _⟩ => ⟨S150x150, .f32⟩
  | .hbm, ⟨8, _⟩ => ⟨S150x150, .f32⟩
  | .hbm, ⟨9, _⟩ => ⟨S100000x150, .f32⟩
  | .hbm, ⟨10, _⟩ => ⟨S100000x150, .f32⟩
  | .hbm, ⟨11, _⟩ => ⟨S100000x150, .f32⟩
  | .hbm, ⟨12, _⟩ => ⟨S100000x150, .f32⟩
  | .hbm, ⟨13, _⟩ => ⟨S100000x150, .f32⟩
  | .hbm, ⟨14, _⟩ => ⟨S100000x150, .f32⟩
  | .hbm, ⟨15, _⟩ => ⟨S100000x150, .f32⟩
  | .hbm, ⟨16, _⟩ => ⟨S100000x150, .f32⟩
  | .hbm, ⟨17, _⟩ => ⟨S100000x150, .f32⟩
  | .hbm, ⟨18, _⟩ => ⟨S_, .f32⟩
  | .hbm, ⟨19, _⟩ => ⟨S100000x150, .f32⟩
  | .hbm, ⟨20, _⟩ => ⟨S100000x150, .f32⟩
  | .hbm, ⟨21, _⟩ => ⟨S_, .f32⟩
  | .hbm, ⟨22, _⟩ => ⟨S100000x150, .f32⟩
  | .hbm, ⟨23, _⟩ => ⟨S100000x150, .f32⟩
  | .hbm, ⟨24, _⟩ => ⟨S100000x150, .f32⟩
  | .hbm, ⟨25, _⟩ => ⟨S100000x150, .f32⟩
  | .hbm, ⟨26, _⟩ => ⟨S100000x150, .f32⟩
  | .hbm, ⟨27, _⟩ => ⟨S100000x150, .f32⟩
  | .hbm, ⟨28, _⟩ => ⟨S100000x150, .f32⟩
  | _, _ => ⟨S100000x150, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S_S100000x150 : S_.BroadcastsInDim S100000x150 (![] : Fin 0 → Fin S100000x150.rank)
  dot_S100000x150_S150x150_S100000x150_1_0_0_1_n_n_wf : DotDims.WF S100000x150 S150x150 S100000x150 [1] [0] [0] [1] [] []

variable [Facts₀]

def dot_S100000x150_S150x150_S100000x150_1_0_0_1_n_n : DotDims S100000x150 S150x150 S100000x150 where
  lhsContracting := [1]
  rhsContracting := [0]
  lhsNonContracting := [0]
  rhsNonContracting := [1]
  lhsBatch := []
  rhsBatch := []
  wf := dot_S100000x150_S150x150_S100000x150_1_0_0_1_n_n_wf

class Facts : Prop extends Facts₀ where

variable [Facts]
-- ==== Proof.Cell.lean ====
/-
  The tree-LSTM cell, as mathematics on the extended reals, with no program in sight.

  One token `r` (of 100000) and one unit `q` (of 150) determine one entry of each result. The four gates of the
  cell share ONE pre-activation: the token's row of each of the four state arrays contracted, over the 150 units,
  with column `q` of the matching square weight, the four contractions added left to right,

      pre = ((Σₖ s_in[r,k]·W_in[k,q] + Σₖ s_out[r,k]·W_out[k,q]) + Σₖ h_in[r,k]·U_in[k,q]) + Σₖ h_out[r,k]·U_out[k,q].

  The gate is its logistic, `g = 1 / (1 + e^(-pre))`; the new cell state is `g·c + g·g` of the old cell state
  `c = last_c[r,q]`; the new hidden state is `g · tanh (g·c + g·g)`.

  Nothing here needs the entries to be finite: the two sides of the certificate spell the SAME tree of sums and
  products (no factor is moved across a sum), and the logistic written out as a quotient is the logistic at every
  extended real, the infinities included (`logistic_quotient`).
-/
import Idealize.ShloMosaic.PureOps.Ideal
import Idealize.ShloMosaic.PureOps.Ideal.Laws

noncomputable section

namespace Cert.TreeCell

open Idealize.ShloMosaic

/-! ## One entry -/

/-- The shared pre-activation of one token and one unit: four contractions over the 150 units, added left to right. -/
def pre (s₀ s₁ h₀ h₁ w₀ w₁ u₀ u₁ : Fin 150 → EReal) : EReal :=
  (((∑ k, s₀ k * w₀ k) + ∑ k, s₁ k * w₁ k) + ∑ k, h₀ k * u₀ k) + ∑ k, h₁ k * u₁ k

/-- The gate all four roles share: the logistic of the pre-activation. -/
def gate (p : EReal) : EReal := Ideal.logistic p

/-- The new cell state from the gate `g` and the old cell state `c`: forget·old + input·update, all four being `g`. -/
def cell (g c : EReal) : EReal := g * c + g * g

/-- The new hidden state: the output gate times the squashed new cell state. -/
def hidden (g c : EReal) : EReal := g * Ideal.tanh (cell g c)

/-- The float `1.0` denotes the real one. -/
theorem one_f32 : Ideal.ofBits .f32 0x3F800000#32 = 1 := by
  simp [Ideal.ofBits, Ideal.ieee, -EReal.coe_mul]; norm_num

/-- The logistic spelled as a quotient, `1.0 / (1.0 + e^(-p))`, is the logistic, at every extended real: at `⊤` the
    exponential is `0` and the quotient `1`, at `⊥` it is `⊤` and the quotient `0`. -/
theorem logistic_quotient (p : EReal) :
    Ideal.div (Ideal.ofBits .f32 0x3F800000#32) (Ideal.ofBits .f32 0x3F800000#32 + Ideal.exp (-p)) = gate p := by
  rw [one_f32]; rfl

/-! ## The whole arrays -/

/-- The five token arrays: 100000 tokens by 150 units. -/
abbrev Tokens : Shape := ⟨2, ![100000, 150]⟩
/-- The four square weights: 150 units by 150 units. -/
abbrev Weights : Shape := ⟨2, ![150, 150]⟩

/-- Entry `k` of the row of token-array index `i`. -/
def rowAt (i : Tokens.Idx) (k : Fin 150) : Tokens.Idx := fun a => match a with
  | ⟨0, _⟩ => ⟨(i 0).val, (i 0).isLt⟩
  | ⟨1, _⟩ => ⟨k.val, k.isLt⟩

/-- Entry `k` of the weight column that token-array index `i`'s unit selects. -/
def colAt (i : Tokens.Idx) (k : Fin 150) : Weights.Idx := fun a => match a with
  | ⟨0, _⟩ => ⟨k.val, k.isLt⟩
  | ⟨1, _⟩ => ⟨(i 1).val, (i 1).isLt⟩

/-- The gate at every token and unit. -/
def gateArr (s₀ s₁ h₀ h₁ : Tokens.Idx → EReal) (w₀ w₁ u₀ u₁ : Weights.Idx → EReal) (i : Tokens.Idx) : EReal :=
  gate (pre (fun k => s₀ (rowAt i k)) (fun k => s₁ (rowAt i k)) (fun k => h₀ (rowAt i k)) (fun k => h₁ (rowAt i k))
    (fun k => w₀ (colAt i k)) (fun k => w₁ (colAt i k)) (fun k => u₀ (colAt i k)) (fun k => u₁ (colAt i k)))

/-- The new cell state at every token and unit. -/
def cellArr (s₀ s₁ h₀ h₁ c : Tokens.Idx → EReal) (w₀ w₁ u₀ u₁ : Weights.Idx → EReal) : Tokens.Idx → EReal :=
  fun i => cell (gateArr s₀ s₁ h₀ h₁ w₀ w₁ u₀ u₁ i) (c i)

/-- The new hidden state at every token and unit. -/
def hiddenArr (s₀ s₁ h₀ h₁ c : Tokens.Idx → EReal) (w₀ w₁ u₀ u₁ : Weights.Idx → EReal) : Tokens.Idx → EReal :=
  fun i => hidden (gateArr s₀ s₁ h₀ h₁ w₀ w₁ u₀ u₁ i) (c i)

end Cert.TreeCell

end
-- ==== Proof.RefCell.lean ====
/-
  The reference, read one entry at a time, is the tree-LSTM cell of Proof/Cell.lean.

  The reference spells the computation as twenty array operations. Read at one token-and-unit index `i`, each of its four
  `dot_general`s is the contraction of row `i 0` of a state array with column `i 1` of its weight over the 150 units;
  the three additions keep the order the cell's pre-activation adds them in; `1.0 / (1.0 + exp (-pre))` is the
  logistic written as a quotient; and the last five operations are `g·c + g·g` and `g · tanh (g·c + g·g)` verbatim.
  So the two result stages are `cellArr` and `hiddenArr` of the nine argument arrays, with no hypothesis on them.
-/
import proofs.«407402_j76536317215121_3_alg».proof.Proof.Gen.ReferenceIdeal.Read
import proofs.«407402_j76536317215121_3_alg».proof.Proof.Cell

noncomputable section

namespace Cert.ReferenceIdeal.RefCell

open Cert.ReferenceIdeal Cert.ReferenceIdeal.Gen Cert.ReferenceIdeal.Read Cert.TreeCell Idealize.ShloMosaic

/-- The sum of the four contractions, read at `i`, is the cell's pre-activation of row `i 0` and column `i 1`. -/
theorem pre_at (x0 x1 x2 x3 : (⟨S100000x150, .f32⟩ : BufTy).Contents (Elt Ideal))
    (x5 x6 x7 x8 : (⟨S150x150, .f32⟩ : BufTy).Contents (Elt Ideal)) (i : S100000x150.Idx) :
    val_main_v6 (F := Ideal) x0 x1 x2 x3 x5 x6 x7 x8 i
      = pre (fun k => x0 (rowAt i k)) (fun k => x1 (rowAt i k)) (fun k => x2 (rowAt i k)) (fun k => x3 (rowAt i k))
          (fun k => x5 (colAt i k)) (fun k => x6 (colAt i k)) (fun k => x7 (colAt i k)) (fun k => x8 (colAt i k)) := by
  rw [val_main_v6_apply, val_main_v4_apply, val_main_v2_apply, val_main_v0_apply, val_main_v1_apply,
    val_main_v3_apply, val_main_v5_apply]
  rfl

/-- The quotient `1.0 / (1.0 + exp (-pre))`, read at `i`, is the gate there. -/
theorem gate_at (x0 x1 x2 x3 : (⟨S100000x150, .f32⟩ : BufTy).Contents (Elt Ideal))
    (x5 x6 x7 x8 : (⟨S150x150, .f32⟩ : BufTy).Contents (Elt Ideal)) (i : S100000x150.Idx) :
    val_main_v12 (F := Ideal) x0 x1 x2 x3 x5 x6 x7 x8 i = gateArr x0 x1 x2 x3 x5 x6 x7 x8 i := by
  rw [val_main_v12_apply, val_main_v11_apply, val_main_cst_0_apply, val_main_v10_apply, val_main_v9_apply,
    val_main_cst_apply, val_main_v8_apply, val_main_v7_apply, pre_at]
  exact logistic_quotient _

/-- The reference's second result, the new cell state, is `cellArr` of its arguments. -/
theorem cell_eq (x0 x1 x2 x3 x4 : (⟨S100000x150, .f32⟩ : BufTy).Contents (Elt Ideal))
    (x5 x6 x7 x8 : (⟨S150x150, .f32⟩ : BufTy).Contents (Elt Ideal)) :
    val_main_v15 (F := Ideal) x0 x1 x2 x3 x4 x5 x6 x7 x8 = cellArr x0 x1 x2 x3 x4 x5 x6 x7 x8 := by
  funext i
  rw [val_main_v15_apply, val_main_v13_apply, val_main_v14_apply, gate_at]
  rfl

/-- The reference's first result, the new hidden state, is `hiddenArr` of its arguments. -/
theorem hidden_eq (x0 x1 x2 x3 x4 : (⟨S100000x150, .f32⟩ : BufTy).Contents (Elt Ideal))
    (x5 x6 x7 x8 : (⟨S150x150, .f32⟩ : BufTy).Contents (Elt Ideal)) :
    val_main_v17 (F := Ideal) x0 x1 x2 x3 x4 x5 x6 x7 x8 = hiddenArr x0 x1 x2 x3 x4 x5 x6 x7 x8 := by
  funext i
  rw [val_main_v17_apply, val_main_v16_apply, val_main_v15_apply, val_main_v13_apply, val_main_v14_apply, gate_at]
  rfl

end Cert.ReferenceIdeal.RefCell

end
-- ==== Proof.BodyCell.lean ====
/-
  One grid step of the kernel, read one entry at a time, is the tree-LSTM cell of Proof/Cell.lean on that step's rows.

  A step holds 2000 tokens' rows of the five token arrays and the four whole weights. Each of its four matrix
  products accumulates into zero over the full 150 units, so at block index `j` it is the contraction of the block's
  row `j 0` with the weight's column `j 1`; the products are added in the cell's order, the logistic is one operation,
  and the two stored values are `g·c + g·g` and `g · tanh (g·c + g·g)` of the old cell state at `j`.
-/
import proofs.«407402_j76536317215121_3_alg».proof.Proof.Gen.KernelIdeal.Skeleton
import proofs.«407402_j76536317215121_3_alg».proof.Proof.Cell
import Idealize.ShloMosaic.Lib.ValueIdx
import Idealize.ShloMosaic.PureOps.Ideal.Laws

noncomputable section

namespace Cert.KernelIdeal.BodyCell

open Cert.KernelIdeal Cert.KernelIdeal.Gen Cert.TreeCell Idealize.ShloMosaic

/-- Entry `k` of the row of block index `j`. -/
def blockRow (j : S2000x150.Idx) (k : Fin 150) : S2000x150.Idx := fun a => match a with
  | ⟨0, _⟩ => ⟨(j 0).val, (j 0).isLt⟩
  | ⟨1, _⟩ => ⟨k.val, k.isLt⟩

/-- Entry `k` of the weight column that block index `j`'s unit selects. -/
def weightCol (j : S2000x150.Idx) (k : Fin 150) : S150x150.Idx := fun a => match a with
  | ⟨0, _⟩ => ⟨k.val, k.isLt⟩
  | ⟨1, _⟩ => ⟨(j 1).val, (j 1).isLt⟩

/-! ## The product's operand indices, axis by axis -/

theorem lhs_axis0 (j : S2000x150.Idx) (q : dot_S2000x150_S150x150_S2000x150_1_0_0_1_n_n.contr.Idx) : (dot_S2000x150_S150x150_S2000x150_1_0_0_1_n_n.lhsIdx j q 0).val = (j 0).val := by
  unfold DotDims.lhsIdx
  rw [dif_neg (show ¬(0 : Fin S2000x150.rank) ∈ dot_S2000x150_S150x150_S2000x150_1_0_0_1_n_n.lhsBatch by decide), dif_pos (show (0 : Fin S2000x150.rank) ∈ dot_S2000x150_S150x150_S2000x150_1_0_0_1_n_n.lhsNonContracting by decide)]
  rfl
theorem lhs_axis1 (j : S2000x150.Idx) (q : dot_S2000x150_S150x150_S2000x150_1_0_0_1_n_n.contr.Idx) : (dot_S2000x150_S150x150_S2000x150_1_0_0_1_n_n.lhsIdx j q 1).val = (q ⟨0, by decide⟩).val :=
  dot_S2000x150_S150x150_S2000x150_1_0_0_1_n_n.lhsIdx_val_of_single rfl j q
theorem rhs_axis0 (j : S2000x150.Idx) (q : dot_S2000x150_S150x150_S2000x150_1_0_0_1_n_n.contr.Idx) : (dot_S2000x150_S150x150_S2000x150_1_0_0_1_n_n.rhsIdx j q 0).val = (q ⟨0, by decide⟩).val :=
  dot_S2000x150_S150x150_S2000x150_1_0_0_1_n_n.rhsIdx_val_of_single rfl j q
theorem rhs_axis1 (j : S2000x150.Idx) (q : dot_S2000x150_S150x150_S2000x150_1_0_0_1_n_n.contr.Idx) : (dot_S2000x150_S150x150_S2000x150_1_0_0_1_n_n.rhsIdx j q 1).val = (j 1).val := by
  unfold DotDims.rhsIdx
  rw [dif_neg (show ¬(1 : Fin S150x150.rank) ∈ dot_S2000x150_S150x150_S2000x150_1_0_0_1_n_n.rhsBatch by decide), dif_pos (show (1 : Fin S150x150.rank) ∈ dot_S2000x150_S150x150_S2000x150_1_0_0_1_n_n.rhsNonContracting by decide)]
  rfl

/-- A block times a weight into a zero accumulator, at `j`: row `j 0` of the block against column `j 1` of the weight. -/
theorem product_at (x : Vec Ideal S2000x150 .f32) (w : Vec Ideal S150x150 .f32) (j : S2000x150.Idx) :
    matmul (F := Ideal) (φ₁ := .f32) (φ₂ := .f32) dot_S2000x150_S150x150_S2000x150_1_0_0_1_n_n none x w (constant (F := Ideal) S2000x150 .f32 0x00000000#32) j = ∑ k : Fin 150, x (blockRow j k) * w (weightCol j k) := by
  simp only [matmul]
  rw [Ideal.matmul_constant_zero_apply, ← Equiv.sum_comp (ValueIdx.contrEquiv1 dot_S2000x150_S150x150_S2000x150_1_0_0_1_n_n 150 rfl rfl).symm]
  refine Finset.sum_congr rfl fun k _ => ?_
  have hk := ValueIdx.contrEquiv1_symm_val dot_S2000x150_S150x150_S2000x150_1_0_0_1_n_n 150 rfl rfl k
  have el : dot_S2000x150_S150x150_S2000x150_1_0_0_1_n_n.lhsIdx j ((ValueIdx.contrEquiv1 dot_S2000x150_S150x150_S2000x150_1_0_0_1_n_n 150 rfl rfl).symm k) = blockRow j k := funext fun a => Fin.ext (by
    match a with
    | ⟨0, _⟩ => exact lhs_axis0 _ _
    | ⟨1, _⟩ => exact (lhs_axis1 _ _).trans hk)
  have er : dot_S2000x150_S150x150_S2000x150_1_0_0_1_n_n.rhsIdx j ((ValueIdx.contrEquiv1 dot_S2000x150_S150x150_S2000x150_1_0_0_1_n_n 150 rfl rfl).symm k) = weightCol j k := funext fun a => Fin.ext (by
    match a with
    | ⟨0, _⟩ => exact (rhs_axis0 _ _).trans hk
    | ⟨1, _⟩ => exact rhs_axis1 _ _)
  rw [el, er]

/-! ## The three payloads at an entry -/

/-- The gate the step computes, at `j`. -/
theorem gate_at (x0 x1 x2 x3 : Vec Ideal S2000x150 .f32) (w5 w6 w7 w8 : Vec Ideal S150x150 .f32) (j : S2000x150.Idx) :
    k0_pay1 (F := Ideal) x0 x1 x2 x3 w5 w6 w7 w8 j
      = gate (pre (fun k => x0 (blockRow j k)) (fun k => x1 (blockRow j k)) (fun k => x2 (blockRow j k)) (fun k => x3 (blockRow j k))
          (fun k => w5 (weightCol j k)) (fun k => w6 (weightCol j k)) (fun k => w7 (weightCol j k)) (fun k => w8 (weightCol j k))) := by
  unfold k0_pay1
  show Ideal.logistic (((matmul (F := Ideal) (φ₁ := .f32) (φ₂ := .f32) dot_S2000x150_S150x150_S2000x150_1_0_0_1_n_n none x0 w5 (constant (F := Ideal) S2000x150 .f32 0x00000000#32) j
      + matmul (F := Ideal) (φ₁ := .f32) (φ₂ := .f32) dot_S2000x150_S150x150_S2000x150_1_0_0_1_n_n none x1 w6 (constant (F := Ideal) S2000x150 .f32 0x00000000#32) j)
      + matmul (F := Ideal) (φ₁ := .f32) (φ₂ := .f32) dot_S2000x150_S150x150_S2000x150_1_0_0_1_n_n none x2 w7 (constant (F := Ideal) S2000x150 .f32 0x00000000#32) j)
      + matmul (F := Ideal) (φ₁ := .f32) (φ₂ := .f32) dot_S2000x150_S150x150_S2000x150_1_0_0_1_n_n none x3 w8 (constant (F := Ideal) S2000x150 .f32 0x00000000#32) j) = _
  rw [product_at, product_at, product_at, product_at]
  rfl

/-- The new cell state the step stores, at `j`. -/
theorem cell_at (x0 x1 x2 x3 x4 : Vec Ideal S2000x150 .f32) (w5 w6 w7 w8 : Vec Ideal S150x150 .f32) (j : S2000x150.Idx) :
    k0_pay2 (F := Ideal) x0 x1 x2 x3 w5 w6 w7 w8 x4 j
      = cell (gate (pre (fun k => x0 (blockRow j k)) (fun k => x1 (blockRow j k)) (fun k => x2 (blockRow j k)) (fun k => x3 (blockRow j k))
          (fun k => w5 (weightCol j k)) (fun k => w6 (weightCol j k)) (fun k => w7 (weightCol j k)) (fun k => w8 (weightCol j k)))) (x4 j) := by
  unfold k0_pay2
  show k0_pay1 (F := Ideal) x0 x1 x2 x3 w5 w6 w7 w8 j * x4 j
      + k0_pay1 (F := Ideal) x0 x1 x2 x3 w5 w6 w7 w8 j * k0_pay1 (F := Ideal) x0 x1 x2 x3 w5 w6 w7 w8 j = _
  rw [gate_at]
  rfl

/-- The new hidden state the step stores, at `j`. -/
theorem hidden_at (x0 x1 x2 x3 x4 : Vec Ideal S2000x150 .f32) (w5 w6 w7 w8 : Vec Ideal S150x150 .f32) (j : S2000x150.Idx) :
    k0_pay3 (F := Ideal) x0 x1 x2 x3 w5 w6 w7 w8 x4 j
      = hidden (gate (pre (fun k => x0 (blockRow j k)) (fun k => x1 (blockRow j k)) (fun k => x2 (blockRow j k)) (fun k => x3 (blockRow j k))
          (fun k => w5 (weightCol j k)) (fun k => w6 (weightCol j k)) (fun k => w7 (weightCol j k)) (fun k => w8 (weightCol j k)))) (x4 j) := by
  unfold k0_pay3
  show k0_pay1 (F := Ideal) x0 x1 x2 x3 w5 w6 w7 w8 j * Ideal.tanh (k0_pay2 (F := Ideal) x0 x1 x2 x3 w5 w6 w7 w8 x4 j) = _
  rw [cell_at, gate_at]
  rfl

/-! ## A step's blocks as rows of the arrays -/

/-- Suppose that, at block index `j` and array index `i`, each state block's row is the array's row, the old cell state's
    entry is the array's entry, and each weight block's column is the weight's column. Then the stored cell entry is
    the whole-array cell state at `i`. -/
theorem cell_of_rows (x0 x1 x2 x3 x4 : Vec Ideal S2000x150 .f32) (w5 w6 w7 w8 : Vec Ideal S150x150 .f32)
    (a0 a1 a2 a3 a4 : Tokens.Idx → EReal) (b5 b6 b7 b8 : Weights.Idx → EReal) (j : S2000x150.Idx) (i : Tokens.Idx)
    (h0 : ∀ k, x0 (blockRow j k) = a0 (rowAt i k)) (h1 : ∀ k, x1 (blockRow j k) = a1 (rowAt i k))
    (h2 : ∀ k, x2 (blockRow j k) = a2 (rowAt i k)) (h3 : ∀ k, x3 (blockRow j k) = a3 (rowAt i k))
    (h4 : x4 j = a4 i)
    (h5 : ∀ k, w5 (weightCol j k) = b5 (colAt i k)) (h6 : ∀ k, w6 (weightCol j k) = b6 (colAt i k))
    (h7 : ∀ k, w7 (weightCol j k) = b7 (colAt i k)) (h8 : ∀ k, w8 (weightCol j k) = b8 (colAt i k)) :
    k0_pay2 (F := Ideal) x0 x1 x2 x3 w5 w6 w7 w8 x4 j = cellArr a0 a1 a2 a3 a4 b5 b6 b7 b8 i := by
  rw [cell_at]
  simp only [h0, h1, h2, h3, h4, h5, h6, h7, h8]
  rfl

/-- Under the same suppositions the stored hidden entry is the whole-array hidden state at `i`. -/
theorem hidden_of_rows (x0 x1 x2 x3 x4 : Vec Ideal S2000x150 .f32) (w5 w6 w7 w8 : Vec Ideal S150x150 .f32)
    (a0 a1 a2 a3 a4 : Tokens.Idx → EReal) (b5 b6 b7 b8 : Weights.Idx → EReal) (j : S2000x150.Idx) (i : Tokens.Idx)
    (h0 : ∀ k, x0 (blockRow j k) = a0 (rowAt i k)) (h1 : ∀ k, x1 (blockRow j k) = a1 (rowAt i k))
    (h2 : ∀ k, x2 (blockRow j k) = a2 (rowAt i k)) (h3 : ∀ k, x3 (blockRow j k) = a3 (rowAt i k))
    (h4 : x4 j = a4 i)
    (h5 : ∀ k, w5 (weightCol j k) = b5 (colAt i k)) (h6 : ∀ k, w6 (weightCol j k) = b6 (colAt i k))
    (h7 : ∀ k, w7 (weightCol j k) = b7 (colAt i k)) (h8 : ∀ k, w8 (weightCol j k) = b8 (colAt i k)) :
    k0_pay3 (F := Ideal) x0 x1 x2 x3 w5 w6 w7 w8 x4 j = hiddenArr a0 a1 a2 a3 a4 b5 b6 b7 b8 i := by
  rw [hidden_at]
  simp only [h0, h1, h2, h3, h4, h5, h6, h7, h8]
  rfl

end Cert.KernelIdeal.BodyCell

end
-- ==== Proof.Blocks.lean ====
/-
  From grid steps to whole arrays.

  The grid has 50 steps. Step `t` sees rows `2000·t … 2000·t + 1999` of each of the five token arrays and of both
  results, all 150 units wide, and the four weights whole. So block index `j` of step `t` is array index
  `(2000·t + j 0, j 1)`: the block's row `j 0` is the array's row `2000·t + j 0`, and the weight column the unit `j 1`
  selects is the same column for the block as for the array. With Proof/BodyCell.lean this makes what step `t` writes
  back block `t` of the whole-array cell and hidden states of Proof/Cell.lean. Every row `r` lies in exactly the
  step `r / 2000`, so the blocks cover both results and each result ends as that whole-array function.
-/
import proofs.«407402_j76536317215121_3_alg».proof.Proof.Gen.KernelIdeal.Value
import proofs.«407402_j76536317215121_3_alg».proof.Proof.BodyCell

noncomputable section

namespace Cert.KernelIdeal.Blocks

open Cert.KernelIdeal Cert.KernelIdeal.Gen Cert.KernelIdeal.BodyCell Cert.TreeCell
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-! ## Where each window sits at step `t`: the token windows on block-row `t`, the weights on their one block -/

theorem at0 : ∀ t : Fin cfg0.N, win0_0.index t (0 : Fin 2) = t.val ∧ win0_0.index t (1 : Fin 2) = 0 :=
  (by decide +kernel : ∀ t : Fin grid0.N, _)
theorem at1 : ∀ t : Fin cfg0.N, win0_1.index t (0 : Fin 2) = t.val ∧ win0_1.index t (1 : Fin 2) = 0 :=
  (by decide +kernel : ∀ t : Fin grid0.N, _)
theorem at2 : ∀ t : Fin cfg0.N, win0_2.index t (0 : Fin 2) = t.val ∧ win0_2.index t (1 : Fin 2) = 0 :=
  (by decide +kernel : ∀ t : Fin grid0.N, _)
theorem at3 : ∀ t : Fin cfg0.N, win0_3.index t (0 : Fin 2) = t.val ∧ win0_3.index t (1 : Fin 2) = 0 :=
  (by decide +kernel : ∀ t : Fin grid0.N, _)
theorem at4 : ∀ t : Fin cfg0.N, win0_4.index t (0 : Fin 2) = t.val ∧ win0_4.index t (1 : Fin 2) = 0 :=
  (by decide +kernel : ∀ t : Fin grid0.N, _)
theorem at5 : ∀ t : Fin cfg0.N, win0_5.index t (0 : Fin 2) = 0 ∧ win0_5.index t (1 : Fin 2) = 0 :=
  (by decide +kernel : ∀ t : Fin grid0.N, _)
theorem at6 : ∀ t : Fin cfg0.N, win0_6.index t (0 : Fin 2) = 0 ∧ win0_6.index t (1 : Fin 2) = 0 :=
  (by decide +kernel : ∀ t : Fin grid0.N, _)
theorem at7 : ∀ t : Fin cfg0.N, win0_7.index t (0 : Fin 2) = 0 ∧ win0_7.index t (1 : Fin 2) = 0 :=
  (by decide +kernel : ∀ t : Fin grid0.N, _)
theorem at8 : ∀ t : Fin cfg0.N, win0_8.index t (0 : Fin 2) = 0 ∧ win0_8.index t (1 : Fin 2) = 0 :=
  (by decide +kernel : ∀ t : Fin grid0.N, _)
theorem at9 : ∀ t : Fin cfg0.N, win0_9.index t (0 : Fin 2) = t.val ∧ win0_9.index t (1 : Fin 2) = 0 :=
  (by decide +kernel : ∀ t : Fin grid0.N, _)
theorem at10 : ∀ t : Fin cfg0.N, win0_10.index t (0 : Fin 2) = t.val ∧ win0_10.index t (1 : Fin 2) = 0 :=
  (by decide +kernel : ∀ t : Fin grid0.N, _)

/-! ## Block indices as array indices, measured against the hidden result's block -/

/-- Entry `k` of row `j 0` of the first state block is entry `k` of the array row that `j` lands on. -/
theorem row0 (t : Fin cfg0.N) (j : S2000x150.Idx) (k : Fin 150) :
    ((cfg0.win 0).blk t).view.emb (blockRow j k) = rowAt (((cfg0.win 9).blk t).view.emb j) k := by
  obtain ⟨a0, a1⟩ := at0 t
  obtain ⟨o0, o1⟩ := at9 t
  funext a; apply Fin.ext
  match a with
  | ⟨0, _⟩ => show win0_0.index t (0 : Fin 2) * 2000 + 1 * (j 0).val = win0_9.index t (0 : Fin 2) * 2000 + 1 * (j 0).val; omega
  | ⟨1, _⟩ => show win0_0.index t (1 : Fin 2) * 150 + 1 * k.val = k.val; omega

theorem row1 (t : Fin cfg0.N) (j : S2000x150.Idx) (k : Fin 150) :
    ((cfg0.win 1).blk t).view.emb (blockRow j k) = rowAt (((cfg0.win 9).blk t).view.emb j) k := by
  obtain ⟨a0, a1⟩ := at1 t
  obtain ⟨o0, o1⟩ := at9 t
  funext a; apply Fin.ext
  match a with
  | ⟨0, _⟩ => show win0_1.index t (0 : Fin 2) * 2000 + 1 * (j 0).val = win0_9.index t (0 : Fin 2) * 2000 + 1 * (j 0).val; omega
  | ⟨1, _⟩ => show win0_1.index t (1 : Fin 2) * 150 + 1 * k.val = k.val; omega

theorem row2 (t : Fin cfg0.N) (j : S2000x150.Idx) (k : Fin 150) :
    ((cfg0.win 2).blk t).view.emb (blockRow j k) = rowAt (((cfg0.win 9).blk t).view.emb j) k := by
  obtain ⟨a0, a1⟩ := at2 t
  obtain ⟨o0, o1⟩ := at9 t
  funext a; apply Fin.ext
  match a with
  | ⟨0, _⟩ => show win0_2.index t (0 : Fin 2) * 2000 + 1 * (j 0).val = win0_9.index t (0 : Fin 2) * 2000 + 1 * (j 0).val; omega
  | ⟨1, _⟩ => show win0_2.index t (1 : Fin 2) * 150 + 1 * k.val = k.val; omega

theorem row3 (t : Fin cfg0.N) (j : S2000x150.Idx) (k : Fin 150) :
    ((cfg0.win 3).blk t).view.emb (blockRow j k) = rowAt (((cfg0.win 9).blk t).view.emb j) k := by
  obtain ⟨a0, a1⟩ := at3 t
  obtain ⟨o0, o1⟩ := at9 t
  funext a; apply Fin.ext
  match a with
  | ⟨0, _⟩ => show win0_3.index t (0 : Fin 2) * 2000 + 1 * (j 0).val = win0_9.index t (0 : Fin 2) * 2000 + 1 * (j 0).val; omega
  | ⟨1, _⟩ => show win0_3.index t (1 : Fin 2) * 150 + 1 * k.val = k.val; omega

/-- The old cell state's block sits exactly under the hidden result's block. -/
theorem same4 (t : Fin cfg0.N) (j : S2000x150.Idx) :
    ((cfg0.win 4).blk t).view.emb j = ((cfg0.win 9).blk t).view.emb j := by
  obtain ⟨a0, a1⟩ := at4 t
  obtain ⟨o0, o1⟩ := at9 t
  funext a; apply Fin.ext
  match a with
  | ⟨0, _⟩ => show win0_4.index t (0 : Fin 2) * 2000 + 1 * (j 0).val = win0_9.index t (0 : Fin 2) * 2000 + 1 * (j 0).val; omega
  | ⟨1, _⟩ => show win0_4.index t (1 : Fin 2) * 150 + 1 * (j 1).val = win0_9.index t (1 : Fin 2) * 150 + 1 * (j 1).val; omega

/-- Entry `k` of the weight block's column `j 1` is entry `k` of the weight column that `j`'s array index selects. -/
theorem col5 (t : Fin cfg0.N) (j : S2000x150.Idx) (k : Fin 150) :
    ((cfg0.win 5).blk t).view.emb (weightCol j k) = colAt (((cfg0.win 9).blk t).view.emb j) k := by
  obtain ⟨a0, a1⟩ := at5 t
  obtain ⟨o0, o1⟩ := at9 t
  funext a; apply Fin.ext
  match a with
  | ⟨0, _⟩ => show win0_5.index t (0 : Fin 2) * 150 + 1 * k.val = k.val; omega
  | ⟨1, _⟩ => show win0_5.index t (1 : Fin 2) * 150 + 1 * (j 1).val = win0_9.index t (1 : Fin 2) * 150 + 1 * (j 1).val; omega

theorem col6 (t : Fin cfg0.N) (j : S2000x150.Idx) (k : Fin 150) :
    ((cfg0.win 6).blk t).view.emb (weightCol j k) = colAt (((cfg0.win 9).blk t).view.emb j) k := by
  obtain ⟨a0, a1⟩ := at6 t
  obtain ⟨o0, o1⟩ := at9 t
  funext a; apply Fin.ext
  match a with
  | ⟨0, _⟩ => show win0_6.index t (0 : Fin 2) * 150 + 1 * k.val = k.val; omega
  | ⟨1, _⟩ => show win0_6.index t (1 : Fin 2) * 150 + 1 * (j 1).val = win0_9.index t (1 : Fin 2) * 150 + 1 * (j 1).val; omega

theorem col7 (t : Fin cfg0.N) (j : S2000x150.Idx) (k : Fin 150) :
    ((cfg0.win 7).blk t).view.emb (weightCol j k) = colAt (((cfg0.win 9).blk t).view.emb j) k := by
  obtain ⟨a0, a1⟩ := at7 t
  obtain ⟨o0, o1⟩ := at9 t
  funext a; apply Fin.ext
  match a with
  | ⟨0, _⟩ => show win0_7.index t (0 : Fin 2) * 150 + 1 * k.val = k.val; omega
  | ⟨1, _⟩ => show win0_7.index t (1 : Fin 2) * 150 + 1 * (j 1).val = win0_9.index t (1 : Fin 2) * 150 + 1 * (j 1).val; omega

theorem col8 (t : Fin cfg0.N) (j : S2000x150.Idx) (k : Fin 150) :
    ((cfg0.win 8).blk t).view.emb (weightCol j k) = colAt (((cfg0.win 9).blk t).view.emb j) k := by
  obtain ⟨a0, a1⟩ := at8 t
  obtain ⟨o0, o1⟩ := at9 t
  funext a; apply Fin.ext
  match a with
  | ⟨0, _⟩ => show win0_8.index t (0 : Fin 2) * 150 + 1 * k.val = k.val; omega
  | ⟨1, _⟩ => show win0_8.index t (1 : Fin 2) * 150 + 1 * (j 1).val = win0_9.index t (1 : Fin 2) * 150 + 1 * (j 1).val; omega

/-- The two results' blocks coincide. -/
theorem same10 (t : Fin cfg0.N) (j : S2000x150.Idx) :
    ((cfg0.win 10).blk t).view.emb j = ((cfg0.win 9).blk t).view.emb j := by
  obtain ⟨a0, a1⟩ := at10 t
  obtain ⟨o0, o1⟩ := at9 t
  funext a; apply Fin.ext
  match a with
  | ⟨0, _⟩ => show win0_10.index t (0 : Fin 2) * 2000 + 1 * (j 0).val = win0_9.index t (0 : Fin 2) * 2000 + 1 * (j 0).val; omega
  | ⟨1, _⟩ => show win0_10.index t (1 : Fin 2) * 150 + 1 * (j 1).val = win0_9.index t (1 : Fin 2) * 150 + 1 * (j 1).val; omega

/-! ## What a step writes back -/

/-- Step `t` writes back block `t` of the whole-array hidden state. -/
theorem hidden_block (c : Dev nD) (t : Fin cfg0.N) :
    (dats m 0 c).flushed 9 t = ((cfg0.win 9).blk t).view.read (Elt Ideal)
      (hiddenArr (V m c main_arg0) (V m c main_arg1) (V m c main_arg2) (V m c main_arg3) (V m c main_arg4)
        (V m c main_arg5) (V m c main_arg6) (V m c main_arg7) (V m c main_arg8)) := by
  rw [Value.flushed9]
  unfold out0_9
  rw [View.canon_unit_zero origin]
  simp only [View.ld_unit_zero (S := S2000x150) origin, View.ld_unit_zero (S := S150x150) origin]
  funext j
  exact hidden_of_rows (iblk m c 0 t) (iblk m c 1 t) (iblk m c 2 t) (iblk m c 3 t) (iblk m c 4 t)
    (iblk m c 5 t) (iblk m c 6 t) (iblk m c 7 t) (iblk m c 8 t)
    (V m c main_arg0) (V m c main_arg1) (V m c main_arg2) (V m c main_arg3) (V m c main_arg4)
        (V m c main_arg5) (V m c main_arg6) (V m c main_arg7) (V m c main_arg8)
    j (((cfg0.win 9).blk t).view.emb j)
    (fun k => congrArg (V m c main_arg0) (row0 t j k)) (fun k => congrArg (V m c main_arg1) (row1 t j k))
    (fun k => congrArg (V m c main_arg2) (row2 t j k)) (fun k => congrArg (V m c main_arg3) (row3 t j k))
    (congrArg (V m c main_arg4) (same4 t j))
    (fun k => congrArg (V m c main_arg5) (col5 t j k)) (fun k => congrArg (V m c main_arg6) (col6 t j k))
    (fun k => congrArg (V m c main_arg7) (col7 t j k)) (fun k => congrArg (V m c main_arg8) (col8 t j k))

/-- Step `t` writes back block `t` of the whole-array cell state. -/
theorem cell_block (c : Dev nD) (t : Fin cfg0.N) :
    (dats m 0 c).flushed 10 t = ((cfg0.win 10).blk t).view.read (Elt Ideal)
      (cellArr (V m c main_arg0) (V m c main_arg1) (V m c main_arg2) (V m c main_arg3) (V m c main_arg4)
        (V m c main_arg5) (V m c main_arg6) (V m c main_arg7) (V m c main_arg8)) := by
  rw [Value.flushed10]
  unfold out0_10
  rw [View.canon_unit_zero origin]
  simp only [View.ld_unit_zero (S := S2000x150) origin, View.ld_unit_zero (S := S150x150) origin]
  funext j
  show _ = cellArr (V m c main_arg0) (V m c main_arg1) (V m c main_arg2) (V m c main_arg3) (V m c main_arg4)
        (V m c main_arg5) (V m c main_arg6) (V m c main_arg7) (V m c main_arg8) (((cfg0.win 10).blk t).view.emb j)
  rw [same10 t j]
  exact cell_of_rows (iblk m c 0 t) (iblk m c 1 t) (iblk m c 2 t) (iblk m c 3 t) (iblk m c 4 t)
    (iblk m c 5 t) (iblk m c 6 t) (iblk m c 7 t) (iblk m c 8 t)
    (V m c main_arg0) (V m c main_arg1) (V m c main_arg2) (V m c main_arg3) (V m c main_arg4)
        (V m c main_arg5) (V m c main_arg6) (V m c main_arg7) (V m c main_arg8)
    j (((cfg0.win 9).blk t).view.emb j)
    (fun k => congrArg (V m c main_arg0) (row0 t j k)) (fun k => congrArg (V m c main_arg1) (row1 t j k))
    (fun k => congrArg (V m c main_arg2) (row2 t j k)) (fun k => congrArg (V m c main_arg3) (row3 t j k))
    (congrArg (V m c main_arg4) (same4 t j))
    (fun k => congrArg (V m c main_arg5) (col5 t j k)) (fun k => congrArg (V m c main_arg6) (col6 t j k))
    (fun k => congrArg (V m c main_arg7) (col7 t j k)) (fun k => congrArg (V m c main_arg8) (col8 t j k))

/-! ## The blocks cover the results: row `r` belongs to step `r / 2000` -/

theorem mem_block9 (t : Fin cfg0.N) (i : S100000x150.Idx) :
    i ∈ ((cfg0.win 9).blk t).view.set ↔ ∀ a : Fin 2, win0_9.index t a * S2000x150.size a ≤ (i a).val ∧ (i a).val < win0_9.index t a * S2000x150.size a + S2000x150.size a := by
  show i ∈ ((View.whole main_v0_0).slice (win0_9.rect t)).set ↔ _
  rw [View.set_slice_whole, Rect.mem_set_unit]
  exact Iff.rfl

theorem mem_block10 (t : Fin cfg0.N) (i : S100000x150.Idx) :
    i ∈ ((cfg0.win 10).blk t).view.set ↔ ∀ a : Fin 2, win0_10.index t a * S2000x150.size a ≤ (i a).val ∧ (i a).val < win0_10.index t a * S2000x150.size a + S2000x150.size a := by
  show i ∈ ((View.whole main_v0_1).slice (win0_10.rect t)).set ↔ _
  rw [View.set_slice_whole, Rect.mem_set_unit]
  exact Iff.rfl

/-- The step that holds a given row. -/
theorem step_of (i : S100000x150.Idx) : ∃ t : Fin cfg0.N, t.val = (i 0).val / 2000 := by
  have hi0 : (i 0).val < 100000 := (i 0).isLt
  have hN : grid0.N = 50 := N_0
  exact ⟨⟨(i 0).val / 2000, by show _ < grid0.N; omega⟩, rfl⟩

theorem covered9 (i : S100000x150.Idx) :
    ∃ t : Fin cfg0.N, (cfg0.win 9).flush t = true ∧ i ∈ ((cfg0.win 9).blk t).view.set := by
  have hi0 : (i 0).val < 100000 := (i 0).isLt
  have hi1 : (i 1).val < 150 := (i 1).isLt
  obtain ⟨t, ht⟩ := step_of i
  obtain ⟨o0, o1⟩ := at9 t
  refine ⟨t, flush0_9 t, ?_⟩
  rw [mem_block9]
  intro a
  match a with
  | ⟨0, _⟩ => show win0_9.index t (0 : Fin 2) * 2000 ≤ (i 0).val ∧ (i 0).val < win0_9.index t (0 : Fin 2) * 2000 + 2000; omega
  | ⟨1, _⟩ => show win0_9.index t (1 : Fin 2) * 150 ≤ (i 1).val ∧ (i 1).val < win0_9.index t (1 : Fin 2) * 150 + 150; omega

theorem covered10 (i : S100000x150.Idx) :
    ∃ t : Fin cfg0.N, (cfg0.win 10).flush t = true ∧ i ∈ ((cfg0.win 10).blk t).view.set := by
  have hi0 : (i 0).val < 100000 := (i 0).isLt
  have hi1 : (i 1).val < 150 := (i 1).isLt
  obtain ⟨t, ht⟩ := step_of i
  obtain ⟨o0, o1⟩ := at10 t
  refine ⟨t, flush0_10 t, ?_⟩
  rw [mem_block10]
  intro a
  match a with
  | ⟨0, _⟩ => show win0_10.index t (0 : Fin 2) * 2000 ≤ (i 0).val ∧ (i 0).val < win0_10.index t (0 : Fin 2) * 2000 + 2000; omega
  | ⟨1, _⟩ => show win0_10.index t (1 : Fin 2) * 150 ≤ (i 1).val ∧ (i 1).val < win0_10.index t (1 : Fin 2) * 150 + 150; omega

/-! ## The results after the run -/

/-- The first result ends as the whole-array hidden state of the arguments. -/
theorem hidden_final (c : Dev nD) : (dats m 0 c).arrAt 9 cfg0.N = hiddenArr (V m c main_arg0) (V m c main_arg1) (V m c main_arg2) (V m c main_arg3) (V m c main_arg4)
        (V m c main_arg5) (V m c main_arg6) (V m c main_arg7) (V m c main_arg8) :=
  (dats m 0 c).arrAt_eq_of_cover 9 _ (fun t _ => hidden_block m c t) covered9

/-- The second result ends as the whole-array cell state of the arguments. -/
theorem cell_final (c : Dev nD) : (dats m 0 c).arrAt 10 cfg0.N = cellArr (V m c main_arg0) (V m c main_arg1) (V m c main_arg2) (V m c main_arg3) (V m c main_arg4)
        (V m c main_arg5) (V m c main_arg6) (V m c main_arg7) (V m c main_arg8) :=
  (dats m 0 c).arrAt_eq_of_cover 10 _ (fun t _ => cell_block m c t) covered10

/-- Every weakly fair execution of the kernel ends with the two results at the cell's whole-array functions of the
    arguments, and the arguments as they were. -/
theorem run : θ_run defs (onTc (τ := τ) (main (F := Ideal))) ⟨m, fun _ => 0, ρ⟩ fun r => ∀ c : Dev nD,
      r.2.mem ((c : Thread nD τ).loc main_v0_0) = hiddenArr (V m c main_arg0) (V m c main_arg1) (V m c main_arg2) (V m c main_arg3) (V m c main_arg4)
        (V m c main_arg5) (V m c main_arg6) (V m c main_arg7) (V m c main_arg8)
      ∧ r.2.mem ((c : Thread nD τ).loc main_v0_1) = cellArr (V m c main_arg0) (V m c main_arg1) (V m c main_arg2) (V m c main_arg3) (V m c main_arg4)
        (V m c main_arg5) (V m c main_arg6) (V m c main_arg7) (V m c main_arg8)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (hidden_final m c), (h c).2.1.trans (cell_final m c), (h c).2.2⟩)
    (Value.run_blocks m ρ)

end Cert.KernelIdeal.Blocks

end
-- ==== Proof.lean ====
/-
  A tree-LSTM cell over 100000 tokens and 150 units, computed 2000 tokens at a time, against the same cell computed on
  whole arrays.

  All four gates of this cell share one pre-activation: for token `r` and unit `q`, the token's rows of the four state
  arrays contracted over the 150 units with column `q` of the four square weights, the contractions added left to right.
  The gate is `g = 1 / (1 + e^(-pre))`, the new cell state `g·c + g·g` of the old cell state `c`, and the new hidden state
  `g · tanh (g·c + g·g)` (Proof/Cell.lean).

  The kernel walks a grid of 50 steps; step `t` holds rows `2000·t … 2000·t + 1999` of the five token arrays and the
  weights whole, forms the four products over the full contraction, and writes its 2000 rows of both results. On the
  extended reals each entry it writes is the cell's law of that entry's row and column (Proof/BodyCell.lean); the 50
  blocks tile the results, so each result ends as the cell's whole-array function of the arguments (Proof/Blocks.lean).
  The reference's twenty array operations, read at an entry, are the same law, its logistic written as the quotient
  `1.0 / (1.0 + exp (-pre))` (Proof/RefCell.lean). The two sides spell one tree of sums and products in one order, so
  they agree at every extended real and the finiteness of the inputs is never used.

  The kernel's idealization rewrote nothing, so that claim is trivial; the three runs are the two generated frames
  and the reference's generated run.
-/
import proofs.«407402_j76536317215121_3_alg».proof.Defs
import proofs.«407402_j76536317215121_3_alg».proof.Proof.Gen.Kernel
import proofs.«407402_j76536317215121_3_alg».proof.Proof.Gen.Kernel.Skeleton
import proofs.«407402_j76536317215121_3_alg».proof.Proof.Gen.Kernel.Launch
import proofs.«407402_j76536317215121_3_alg».proof.Proof.Gen.Kernel.Points
import proofs.«407402_j76536317215121_3_alg».proof.Proof.Gen.Kernel.Frame
import proofs.«407402_j76536317215121_3_alg».proof.Proof.Gen.KernelIdeal
import proofs.«407402_j76536317215121_3_alg».proof.Proof.Gen.KernelIdeal.Skeleton
import proofs.«407402_j76536317215121_3_alg».proof.Proof.Gen.KernelIdeal.Launch
import proofs.«407402_j76536317215121_3_alg».proof.Proof.Gen.KernelIdeal.Points
import proofs.«407402_j76536317215121_3_alg».proof.Proof.Gen.KernelIdeal.Frame
import proofs.«407402_j76536317215121_3_alg».proof.Proof.Gen.ReferenceIdeal
import proofs.«407402_j76536317215121_3_alg».proof.Proof.Gen.KernelIdeal.Value
import proofs.«407402_j76536317215121_3_alg».proof.Proof.Gen.ReferenceIdeal.Run
import proofs.«407402_j76536317215121_3_alg».proof.Proof.Gen.ReferenceIdeal.Read
import proofs.«407402_j76536317215121_3_alg».proof.Proof.Gen.Pre_finite_inputs
import proofs.«407402_j76536317215121_3_alg».proof.Proof.RefCell
import proofs.«407402_j76536317215121_3_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- So does the reference: its run, with the two results forgotten. -/
theorem frame_reference : Cert.frame_ReferenceIdeal := fun m ρ _ =>
  (θ_run Cert.ReferenceIdeal.defs _ _).mono (fun _ h c => (h c).2.2) (Cert.ReferenceIdeal.Value.run (F := Ideal) m ρ)

/-- From arguments that agree, the kernel's two results and the reference's are the cell's hidden and cell states of
    those arguments. -/
theorem algebraic : Cert.algebraic_KernelIdeal_ReferenceIdeal := by
  intro m ρ m' ρ' _ hagree
  refine ⟨_, _, Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8⟩ := hagree c
    rw [Cert.ReferenceIdeal.Read.val_main_v17_eq, Cert.ReferenceIdeal.RefCell.hidden_eq, e0, e1, e2, e3, e4, e5, e6, e7, e8]
  · obtain ⟨e0, e1, e2, e3, e4, e5, e6, e7, e8⟩ := hagree c
    rw [Cert.ReferenceIdeal.Read.val_main_v15_eq, Cert.ReferenceIdeal.RefCell.cell_eq, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
